-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x128 : Shape := ⟨3, ![256, 256, 128]⟩
abbrev S256x512x128 : Shape := ⟨3, ![256, 512, 128]⟩
abbrev S_ : Shape := ⟨0, ![]⟩

class Facts : Prop where
  bcast_S_S256x256x128 : S_.BroadcastsInDim S256x256x128 (![] : Fin 0 → Fin S256x256x128.rank)
  reducesTo_S256x256x128_S_d0_1_2 : S256x256x128.ReducesTo [0, 1, 2] S_
  h_S_ : 0 < S_.numel
  bcast_S_S256x512x128 : S_.BroadcastsInDim S256x512x128 (![] : Fin 0 → Fin S256x512x128.rank)
  reducesTo_S256x512x128_S_d0_1_2 : S256x512x128.ReducesTo [0, 1, 2] S_

variable [Facts]

def fn {F : FTy → Type} [FloatOps F] (main_arg0 : FVec F S256x256x128 .f32) (main_arg1 : FVec F S256x512x128 .f32) (main_arg2 : FVec F S256x512x128 .f32) : IVec S_ 1 :=
  let main_v0 : FVec F S256x256x128 .f32 := Host.absf main_arg0
  let main_cst : FVec F S_ .f32 := constant S_ .f32 0x7F800000#32
  let main_v1 : FVec F S256x256x128 .f32 := broadcastInDim S256x256x128 ![] bcast_S_S256x256x128 main_cst
  let main_v2 : IVec S256x256x128 1 := cmpf .olt main_v0 main_v1
  let main_c : IVec S_ 1 := constantI S_ 1 1#1
  let main_v3 : IVec S_ 1 := (fun x v => Host.reduce IntOp.andi x v reducesTo_S256x256x128_S_d0_1_2 h_S_) main_v2 main_c
  let main_v4 : FVec F S256x512x128 .f32 := Host.absf main_arg1
  let main_cst_0 : FVec F S_ .f32 := constant S_ .f32 0x7F800000#32
  let main_v5 : FVec F S256x512x128 .f32 := broadcastInDim S256x512x128 ![] bcast_S_S256x512x128 main_cst_0
  let main_v6 : IVec S256x512x128 1 := cmpf .olt main_v4 main_v5
  let main_c_1 : IVec S_ 1 := constantI S_ 1 1#1
  let main_v7 : IVec S_ 1 := (fun x v => Host.reduce IntOp.andi x v reducesTo_S256x512x128_S_d0_1_2 h_S_) main_v6 main_c_1
  let main_v8 : IVec S_ 1 := andi main_v3 main_v7
  let main_v9 : FVec F S256x512x128 .f32 := Host.absf main_arg2
  let main_cst_2 : FVec F S_ .f32 := constant S_ .f32 0x7F800000#32
  let main_v10 : FVec F S256x512x128 .f32 := broadcastInDim S256x512x128 ![] bcast_S_S256x512x128 main_cst_2
  let main_v11 : IVec S256x512x128 1 := cmpf .olt main_v9 main_v10
  let main_c_3 : IVec S_ 1 := constantI S_ 1 1#1
  let main_v12 : IVec S_ 1 := (fun x v => Host.reduce IntOp.andi x v reducesTo_S256x512x128_S_d0_1_2 h_S_) main_v11 main_c_3
  let main_v13 : IVec S_ 1 := andi main_v8 main_v12
  main_v13
-- ==== Kernel.lean ====
abbrev S256x256x128 : Shape := ⟨3, ![256, 256, 128]⟩
abbrev S256x512x128 : Shape := ⟨3, ![256, 512, 128]⟩
abbrev S8x128 : Shape := ⟨2, ![8, 128]⟩
abbrev S8x256x128 : Shape := ⟨3, ![8, 256, 128]⟩
abbrev S8x512x128 : Shape := ⟨3, ![8, 512, 128]⟩
abbrev S8x256x512 : Shape := ⟨3, ![8, 256, 512]⟩
abbrev S8x256 : Shape := ⟨2, ![8, 256]⟩
abbrev S8 : Shape := ⟨1, ![8]⟩
abbrev S8x1 : Shape := ⟨2, ![8, 1]⟩
abbrev S1 : Shape := ⟨1, ![1]⟩
abbrev S1x1 : Shape := ⟨2, ![1, 1]⟩
abbrev S_ : Shape := ⟨0, ![]⟩

abbrev nBuf : Space → Nat
  | .hbm => 14
  | .vmem => 10
  | .smem => 0
  | _ => 0

abbrev bufTy : (tb : Table) → Fin (tcTables nBuf tb) → BufTy
  | .hbm, ⟨0, _⟩ => ⟨S256x256x128, .f32⟩
  | .hbm, ⟨1, _⟩ => ⟨S256x512x128, .f32⟩
  | .hbm, ⟨2, _⟩ => ⟨S256x512x128, .f32⟩
  | .hbm, ⟨3, _⟩ => ⟨S8x128, .f32⟩
  | .hbm, ⟨4, _⟩ => ⟨S8x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S8x256x128, .f32⟩
  | .local _ .vmem, ⟨1, _⟩ => ⟨S8x256x128, .f32⟩
  | .local _ .vmem, ⟨2, _⟩ => ⟨S8x512x128, .f32⟩
  | .local _ .vmem, ⟨3, _⟩ => ⟨S8x512x128, .f32⟩
  | .local _ .vmem, ⟨4, _⟩ => ⟨S8x512x128, .f32⟩
  | .local _ .vmem, ⟨5, _⟩ => ⟨S8x512x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | _, _ => ⟨S256x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x256x128_S8x256x128_0_0_0 : ∀ a, (![0, 0, 0] : Fin 3 → Nat) a + S8x256x128.size a ≤ S8x256x128.size a
  h_S8x256x128 : 0 < S8x256x128.numel
  bitsLt_bf16_f32 : FTy.bits .bf16 < FTy.bits .f32
  inb_S8x512x128_S8x512x128_0_0_0 : ∀ a, (![0, 0, 0] : Fin 3 → Nat) a + S8x512x128.size a ≤ S8x512x128.size a
  h_S8x512x128 : 0 < S8x512x128.numel
  reduces_S8x256x512_S8x256 : S8x256x512.Reduces [2] S8x256
  reduces_S8x256_S8 : S8x256.Reduces [1] S8
  shapeCasts_S8_S8x1 : S8.ShapeCasts S8x1
  reduces_S8x1_S1 : S8x1.Reduces [0] S1
  shapeCasts_S1_S1x1 : S1.ShapeCasts S1x1
  shapeCasts_S1x1_S1x1 : S1x1.ShapeCasts S1x1
  broadcasts_S1x1_S8x128 : S1x1.Broadcasts S8x128
  slices_S8x128_S1x1_0_0 : S8x128.Slices ![0, 0] S1x1
  shapeCasts_S1x1_S_ : S1x1.ShapeCasts S_
  dot_S8x256x128_S8x512x128_S8x256x512_2_2_1_1_0_0_wf : DotDims.WF S8x256x128 S8x512x128 S8x256x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x128.size a ≤ S256x256x128.size a
  hwx0_0 : ∀ i : grid0.Coords, EltTy.bits .f32 = 32 ∨ (Rect.block (s := S256x256x128) S8x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x128.size a ≤ S256x512x128.size a
  hwx0_1 : ∀ i : grid0.Coords, EltTy.bits .f32 = 32 ∨ (Rect.block (s := S256x512x128) S8x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512x128.size a ≤ S256x512x128.size a
  hwx0_2 : ∀ i : grid0.Coords, EltTy.bits .f32 = 32 ∨ (Rect.block (s := S256x512x128) S8x512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .f32 = 32 ∨ (Rect.block (s := S8x128) S8x128.size (cc0_transform_4 i) (hinb0_4 i)).WholeWords (EltTy.packing .f32)

variable [Facts₀]

def dot_S8x256x128_S8x512x128_S8x256x512_2_2_1_1_0_0 : DotDims S8x256x128 S8x512x128 S8x256x512 where
  lhsContracting := [2]
  rhsContracting := [2]
  lhsNonContracting := [1]
  rhsNonContracting := [1]
  lhsBatch := [0]
  rhsBatch := [0]
  wf := dot_S8x256x128_S8x512x128_S8x256x512_2_2_1_1_0_0_wf

abbrev win0_0 : Pipeline.Window sig grid0 :=
  Pipeline.Window.ofSpec (Memref.whole main_arg0) S8x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S8x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S8x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x256x128 : Shape := ⟨3, ![256, 256, 128]⟩
abbrev S256x512x128 : Shape := ⟨3, ![256, 512, 128]⟩
abbrev S256x256x512 : Shape := ⟨3, ![256, 256, 512]⟩
abbrev S_ : Shape := ⟨0, ![]⟩
abbrev S256x256 : Shape := ⟨2, ![256, 256]⟩

abbrev nBuf : Space → Nat
  | .hbm => 18
  | .vmem => 0
  | .smem => 0
  | _ => 0

abbrev bufTy : (tb : Table) → Fin (tcTables nBuf tb) → BufTy
  | .hbm, ⟨0, _⟩ => ⟨S256x256x128, .f32⟩
  | .hbm, ⟨1, _⟩ => ⟨S256x512x128, .f32⟩
  | .hbm, ⟨2, _⟩ => ⟨S256x512x128, .f32⟩
  | .hbm, ⟨3, _⟩ => ⟨S256x256x512, .f32⟩
  | .hbm, ⟨4, _⟩ => ⟨S_, .f32⟩
  | .hbm, ⟨5, _⟩ => ⟨S256x256, .f32⟩
  | .hbm, ⟨6, _⟩ => ⟨S_, .f32⟩
  | .hbm, ⟨7, _⟩ => ⟨S_, .f32⟩
  | .hbm, ⟨8, _⟩ => ⟨S256x256x512, .f32⟩
  | .hbm, ⟨9, _⟩ => ⟨S_, .f32⟩
  | .hbm, ⟨10, _⟩ => ⟨S256x256, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | _, _ => ⟨S256x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_v8 : Ref sig .tc := ⟨.hbm, 17, rfl⟩

abbrev nD : Nat := 1
abbrev τ : Topo := Topo.v7x

variable {F : FTy → Type} [FloatOps F]

class Facts₀ : Prop where
  reducesTo_S256x256x512_S256x256_d2 : S256x256x512.ReducesTo [2] S256x256
  h_S_ : 0 < S_.numel
  reducesTo_S256x256_S_d0_1 : S256x256.ReducesTo [0, 1] S_
  dot_S256x256x128_S256x512x128_S256x256x512_2_2_1_1_0_0_wf : DotDims.WF S256x256x128 S256x512x128 S256x256x512 [2] [2] [1] [1] [0] [0]

variable [Facts₀]

def dot_S256x256x128_S256x512x128_S256x256x512_2_2_1_1_0_0 : DotDims S256x256x128 S256x512x128 S256x256x512 where
  lhsContracting := [2]
  rhsContracting := [2]
  lhsNonContracting := [1]
  rhsNonContracting := [1]
  lhsBatch := [0]
  rhsBatch := [0]
  wf := dot_S256x256x128_S256x512x128_S256x256x512_2_2_1_1_0_0_wf

class Facts : Prop extends Facts₀ where

variable [Facts]
-- ==== Proof.Pieces.lean ====
/-
  What one grid step leaves in the two running-sum buffers and in the two output blocks, as values.

  The step's two stores of arithmetic are `k0_pay5 x0 x1 s` (the first running sum `s` plus the step's positive-side
  total) and `k0_pay1 (k0_pay6 x0 x2 s')` (the same for the negative side), where `x0`, `x1`, `x2` are the step's blocks
  of queries, positive documents and negative documents. At a later step the running sums `s`, `s'` are what the step
  before left; at the first step they are the zero blocks `k0_pay2`, `k0_pay3` the step itself stores first. Each
  output block is a copy of the running sum just stored. Every load and store is of a whole buffer, so each buffer ends
  holding the last payload stored into it.
-/
import proofs.«109188_j52664888983644_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

/-- The zero offsets of a rank-2 and of a rank-3 whole-buffer access. -/
theorem hz : (![0, 0] : Fin 2 → Nat) = fun _ => 0 := funext fun a => by fin_cases a <;> rfl
theorem hz3 : (![0, 0, 0] : Fin 3 → Nat) = fun _ => 0 := funext fun a => by fin_cases a <;> rfl

/-! ## A later step: the running sums are what the step before left -/

theorem sum_pos_later (c : Dev nD) (i : grid0.Coords) (a1 : Memref sig .tc .vmem S8x256x128 .f32) (h1 : a1.IsWhole) (a2 : Memref sig .tc .vmem S8x512x128 .f32) (h2 : a2.IsWhole) (a3 : Memref sig .tc .vmem S8x512x128 .f32) (h3 : a3.IsWhole) (a4 : Memref sig .tc .vmem S8x128 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole) (hc : ¬cond0_0 i) (x0 : Vec F S8x256x128 .f32) (x1 : Vec F S8x512x128 .f32) (x2 : Vec F S8x512x128 .f32) (xs0 xs1 : Vec F S8x128 .f32) :
    sout0_B_0 c i a1 h1 a2 h2 a3 h3 a4 h4 a5 h5 a6 h6 a7 h7 hc x0 x1 x2 xs0 xs1 = k0_pay5 x0 x1 xs0 := by
  unfold sout0_B_0
  rw [View.read_writes_eq_canon _ _ _ (scover0_B_0 c i a1 h1 a2 h2 a3 h3 a4 h4 a5 h5 a6 h6 a7 h7 hc x0 x1 x2 xs0 xs1)]
  unfold kernelRun0_B
  dsimp only
  sl_unfold_words
  rw [View.canon_unit_zero hz]
  simp only [View.readAt_eq_ld, h1.read_unread, h2.read_unread, h3.read_unread, h6.read_unread, h7.read_unread, View.readCov_cons_toLoadRect, View.readCov_unit_zero (S := S8x128) _ hz, View.ld_unit_zero (S := S8x128) hz, View.ld_unit_zero (S := S8x256x128) hz3, View.ld_unit_zero (S := S8x512x128) hz3]

theorem sum_neg_later (c : Dev nD) (i : grid0.Coords) (a1 : Memref sig .tc .vmem S8x256x128 .f32) (h1 : a1.IsWhole) (a2 : Memref sig .tc .vmem S8x512x128 .f32) (h2 : a2.IsWhole) (a3 : Memref sig .tc .vmem S8x512x128 .f32) (h3 : a3.IsWhole) (a4 : Memref sig .tc .vmem S8x128 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole) (hc : ¬cond0_0 i) (x0 : Vec F S8x256x128 .f32) (x1 : Vec F S8x512x128 .f32) (x2 : Vec F S8x512x128 .f32) (xs0 xs1 : Vec F S8x128 .f32) :
    sout0_B_1 c i a1 h1 a2 h2 a3 h3 a4 h4 a5 h5 a6 h6 a7 h7 hc x0 x1 x2 xs0 xs1 = k0_pay1 (k0_pay6 x0 x2 xs1) := by
  unfold sout0_B_1
  rw [View.read_writes_eq_canon _ _ _ (scover0_B_1 c i a1 h1 a2 h2 a3 h3 a4 h4 a5 h5 a6 h6 a7 h7 hc x0 x1 x2 xs0 xs1)]
  unfold kernelRun0_B
  dsimp only
  sl_unfold_words
  rw [View.canon_unit_zero hz]
  simp only [View.readAt_eq_ld, h1.read_unread, h2.read_unread, h3.read_unread, h6.read_unread, h7.read_unread, View.readCov_cons_toLoadRect, View.readCov_unit_zero (S := S8x128) _ hz, View.ld_unit_zero (S := S8x128) hz, View.ld_unit_zero (S := S8x256x128) hz3, View.ld_unit_zero (S := S8x512x128) hz3]

theorem out_pos_later (c : Dev nD) (i : grid0.Coords) (a1 : Memref sig .tc .vmem S8x256x128 .f32) (h1 : a1.IsWhole) (a2 : Memref sig .tc .vmem S8x512x128 .f32) (h2 : a2.IsWhole) (a3 : Memref sig .tc .vmem S8x512x128 .f32) (h3 : a3.IsWhole) (a4 : Memref sig .tc .vmem S8x128 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole) (hc : ¬cond0_0 i) (x0 : Vec F S8x256x128 .f32) (x1 : Vec F S8x512x128 .f32) (x2 : Vec F S8x512x128 .f32) (xs0 xs1 : Vec F S8x128 .f32) :
    out0_B_3 c i a1 h1 a2 h2 a3 h3 a4 h4 a5 h5 a6 h6 a7 h7 hc x0 x1 x2 xs0 xs1 = k0_pay5 x0 x1 xs0 := by
  unfold out0_B_3
  rw [View.read_writes_eq_canon _ _ _ (cover0_B_3 c i a1 h1 a2 h2 a3 h3 a4 h4 a5 h5 a6 h6 a7 h7 hc x0 x1 x2 xs0 xs1)]
  unfold kernelRun0_B
  dsimp only
  sl_unfold_words
  rw [View.canon_unit_zero hz]
  simp only [View.readAt_eq_ld, h1.read_unread, h2.read_unread, h3.read_unread, h6.read_unread, h7.read_unread, View.readCov_cons_toLoadRect, View.readCov_unit_zero (S := S8x128) _ hz, View.ld_unit_zero (S := S8x128) hz, View.ld_unit_zero (S := S8x256x128) hz3, View.ld_unit_zero (S := S8x512x128) hz3]

theorem out_neg_later (c : Dev nD) (i : grid0.Coords) (a1 : Memref sig .tc .vmem S8x256x128 .f32) (h1 : a1.IsWhole) (a2 : Memref sig .tc .vmem S8x512x128 .f32) (h2 : a2.IsWhole) (a3 : Memref sig .tc .vmem S8x512x128 .f32) (h3 : a3.IsWhole) (a4 : Memref sig .tc .vmem S8x128 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole) (hc : ¬cond0_0 i) (x0 : Vec F S8x256x128 .f32) (x1 : Vec F S8x512x128 .f32) (x2 : Vec F S8x512x128 .f32) (xs0 xs1 : Vec F S8x128 .f32) :
    out0_B_4 c i a1 h1 a2 h2 a3 h3 a4 h4 a5 h5 a6 h6 a7 h7 hc x0 x1 x2 xs0 xs1 = k0_pay1 (k0_pay6 x0 x2 xs1) := by
  unfold out0_B_4
  rw [View.read_writes_eq_canon _ _ _ (cover0_B_4 c i a1 h1 a2 h2 a3 h3 a4 h4 a5 h5 a6 h6 a7 h7 hc x0 x1 x2 xs0 xs1)]
  unfold kernelRun0_B
  dsimp only
  sl_unfold_words
  rw [View.canon_unit_zero hz]
  simp only [View.readAt_eq_ld, h1.read_unread, h2.read_unread, h3.read_unread, h6.read_unread, h7.read_unread, View.readCov_cons_toLoadRect, View.readCov_unit_zero (S := S8x128) _ hz, View.ld_unit_zero (S := S8x128) hz, View.ld_unit_zero (S := S8x256x128) hz3, View.ld_unit_zero (S := S8x512x128) hz3]

/-! ## The first step: the running sums start from the zero blocks -/

theorem sum_pos_first (c : Dev nD) (i : grid0.Coords) (a1 : Memref sig .tc .vmem S8x256x128 .f32) (h1 : a1.IsWhole) (a2 : Memref sig .tc .vmem S8x512x128 .f32) (h2 : a2.IsWhole) (a3 : Memref sig .tc .vmem S8x512x128 .f32) (h3 : a3.IsWhole) (a4 : Memref sig .tc .vmem S8x128 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole) (hc : cond0_0 i) (x0 : Vec F S8x256x128 .f32) (x1 : Vec F S8x512x128 .f32) (x2 : Vec F S8x512x128 .f32) :
    sout0_A_0 c i a1 h1 a2 h2 a3 h3 a4 h4 a5 h5 a6 h6 a7 h7 hc x0 x1 x2 = k0_pay5 x0 x1 k0_pay2 := by
  unfold sout0_A_0
  rw [View.read_writes_eq_canon _ _ _ (scover0_A_0 c i a1 h1 a2 h2 a3 h3 a4 h4 a5 h5 a6 h6 a7 h7 hc x0 x1 x2)]
  unfold kernelRun0_A
  dsimp only
  sl_unfold_words
  rw [View.canon_cons_unit_zero (S := S8x128) hz]
  simp only [View.readAt_eq_ld, h1.read_unread, h2.read_unread, h3.read_unread, h6.read_unread, h7.read_unread, View.readCov_cons_toLoadRect, View.readCov_unit_zero (S := S8x128) _ hz, View.ld_unit_zero (S := S8x128) hz, View.ld_unit_zero (S := S8x256x128) hz3, View.ld_unit_zero (S := S8x512x128) hz3]

theorem sum_neg_first (c : Dev nD) (i : grid0.Coords) (a1 : Memref sig .tc .vmem S8x256x128 .f32) (h1 : a1.IsWhole) (a2 : Memref sig .tc .vmem S8x512x128 .f32) (h2 : a2.IsWhole) (a3 : Memref sig .tc .vmem S8x512x128 .f32) (h3 : a3.IsWhole) (a4 : Memref sig .tc .vmem S8x128 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole) (hc : cond0_0 i) (x0 : Vec F S8x256x128 .f32) (x1 : Vec F S8x512x128 .f32) (x2 : Vec F S8x512x128 .f32) :
    sout0_A_1 c i a1 h1 a2 h2 a3 h3 a4 h4 a5 h5 a6 h6 a7 h7 hc x0 x1 x2 = k0_pay1 (k0_pay6 x0 x2 k0_pay3) := by
  unfold sout0_A_1
  rw [View.read_writes_eq_canon _ _ _ (scover0_A_1 c i a1 h1 a2 h2 a3 h3 a4 h4 a5 h5 a6 h6 a7 h7 hc x0 x1 x2)]
  unfold kernelRun0_A
  dsimp only
  sl_unfold_words
  rw [View.canon_cons_unit_zero (S := S8x128) hz]
  simp only [View.readAt_eq_ld, h1.read_unread, h2.read_unread, h3.read_unread, h6.read_unread, h7.read_unread, View.readCov_cons_toLoadRect, View.readCov_unit_zero (S := S8x128) _ hz, View.ld_unit_zero (S := S8x128) hz, View.ld_unit_zero (S := S8x256x128) hz3, View.ld_unit_zero (S := S8x512x128) hz3]

theorem out_pos_first (c : Dev nD) (i : grid0.Coords) (a1 : Memref sig .tc .vmem S8x256x128 .f32) (h1 : a1.IsWhole) (a2 : Memref sig .tc .vmem S8x512x128 .f32) (h2 : a2.IsWhole) (a3 : Memref sig .tc .vmem S8x512x128 .f32) (h3 : a3.IsWhole) (a4 : Memref sig .tc .vmem S8x128 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole) (hc : cond0_0 i) (x0 : Vec F S8x256x128 .f32) (x1 : Vec F S8x512x128 .f32) (x2 : Vec F S8x512x128 .f32) :
    out0_A_3 c i a1 h1 a2 h2 a3 h3 a4 h4 a5 h5 a6 h6 a7 h7 hc x0 x1 x2 = k0_pay5 x0 x1 k0_pay2 := by
  unfold out0_A_3
  rw [View.read_writes_eq_canon _ _ _ (cover0_A_3 c i a1 h1 a2 h2 a3 h3 a4 h4 a5 h5 a6 h6 a7 h7 hc x0 x1 x2)]
  unfold kernelRun0_A
  dsimp only
  sl_unfold_words
  rw [View.canon_unit_zero hz]
  simp only [View.readAt_eq_ld, h1.read_unread, h2.read_unread, h3.read_unread, h6.read_unread, h7.read_unread, View.readCov_cons_toLoadRect, View.readCov_unit_zero (S := S8x128) _ hz, View.ld_unit_zero (S := S8x128) hz, View.ld_unit_zero (S := S8x256x128) hz3, View.ld_unit_zero (S := S8x512x128) hz3]

theorem out_neg_first (c : Dev nD) (i : grid0.Coords) (a1 : Memref sig .tc .vmem S8x256x128 .f32) (h1 : a1.IsWhole) (a2 : Memref sig .tc .vmem S8x512x128 .f32) (h2 : a2.IsWhole) (a3 : Memref sig .tc .vmem S8x512x128 .f32) (h3 : a3.IsWhole) (a4 : Memref sig .tc .vmem S8x128 .f32) (h4 : a4.IsWhole) (a5 : Memref sig .tc .vmem S8x128 .f32) (h5 : a5.IsWhole) (a6 : Memref sig .tc .vmem S8x128 .f32) (h6 : a6.IsWhole) (a7 : Memref sig .tc .vmem S8x128 .f32) (h7 : a7.IsWhole) (hc : cond0_0 i) (x0 : Vec F S8x256x128 .f32) (x1 : Vec F S8x512x128 .f32) (x2 : Vec F S8x512x128 .f32) :
    out0_A_4 c i a1 h1 a2 h2 a3 h3 a4 h4 a5 h5 a6 h6 a7 h7 hc x0 x1 x2 = k0_pay1 (k0_pay6 x0 x2 k0_pay3) := by
  unfold out0_A_4
  rw [View.read_writes_eq_canon _ _ _ (cover0_A_4 c i a1 h1 a2 h2 a3 h3 a4 h4 a5 h5 a6 h6 a7 h7 hc x0 x1 x2)]
  unfold kernelRun0_A
  dsimp only
  sl_unfold_words
  rw [View.canon_unit_zero hz]
  simp only [View.readAt_eq_ld, h1.read_unread, h2.read_unread, h3.read_unread, h6.read_unread, h7.read_unread, View.readCov_cons_toLoadRect, View.readCov_unit_zero (S := S8x128) _ hz, View.ld_unit_zero (S := S8x128) hz, View.ld_unit_zero (S := S8x256x128) hz3, View.ld_unit_zero (S := S8x512x128) hz3]

end Cert.KernelIdeal.Pieces

end
-- ==== Proof.LibRank3.lean ====
/-
  Rank-3 arrays read at an index given by coordinates.

  Layout: an `[a, b]` array viewed as `[a, b, 1]` or as `[a, 1, c]`, and those two laid along the missing axis of an
  `[a, b, c]` array.  Reductions over the extended reals: the sum along the last axis of an `[a, b, c]` array, its minimum
  along the last axis and along the middle axis (each a fold of `min` over that axis's coordinates from the accumulator
  word's value), and the product of an `[B, M, K]` array with an `[B, N, K]` array that is batched over the first axis and
  contracts the LAST axis of both: at (b, p, q) the sum over k of left (b, p, k) times right (b, q, k).
-/
import Idealize.ShloMosaic.Lib.Pipeline.Value
import Idealize.ShloMosaic.Lib.ValueIdx
import Idealize.ShloMosaic.PureOps.Ideal.Laws
import Idealize.ShloMosaic.PureOps.Reduce

noncomputable section

namespace Cert.Rank3

open Idealize.ShloMosaic Idealize.ShloMosaic.ValueIdx

/-! ## Layout -/

section Layout
variable {α : Type} {a b c : ℕ}

/-- An `[a, b]` array viewed as `[a, b, 1]` reads, at `(p, q, u)`, the operand at `(p, q)`. -/
theorem shapeCast_ab_ab1_apply (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, c]` array viewed as `[a, 1, c]` reads, at `(p, u, r)`, the operand at `(p, r)`. -/
theorem shapeCast_ac_a1c_apply (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_two, Shape.rowMajor_val_three]
    show p.val * c + r.val = (p.val * 1 + u.val) * c + r.val
    rw [hu, Nat.mul_one, Nat.add_zero])

/-- An `[a, b, 1]` array laid along the last axis of `[a, b, c]` reads, at `(p, q, r)`, its entry `(p, q, 0)`. -/
theorem broadcastTo_ab1_abc_apply (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An `[a, 1, c]` array laid along the middle axis of `[a, b, c]` reads, at `(p, q, r)`, its entry `(p, 0, r)`. -/
theorem broadcastTo_a1c_abc_apply (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

end Layout

/-! ## Reductions along one axis, over the extended reals -/

section Reduce
variable {φ : FTy} {a b c : ℕ}

/-- The sum along the last axis at `(p, q)`: the sum over `k` of the entries `(p, q, k)`. -/
theorem sum_last_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (funext fun ax => Fin.ext (by
      match ax with | ⟨0, _⟩ => rfl | ⟨1, _⟩ => rfl | ⟨2, _⟩ => rfl)))

/-- A minimum along one axis, at a result index: the fold of `min` from the accumulator word's value over that axis's
    coordinates. -/
theorem min_single {s t : Shape} {ax : Fin s.rank} (src : FVec Ideal s φ) (acc : BitVec φ.bits) (h : s.Reduces [ax] t)
    (hφ : FKind.Formats φ) (hacc : acc = FKind.minimumf.neutral φ hφ) (j : t.Idx) :
    multiReduction .minimumf [ax] t src acc h hφ hacc j
      = (Finset.univ : Finset (Fin (s.size ax))).fold min (Ideal.ofBits φ acc) (src ∘ h.lift j) := by
  rw [multiReduction_minimumf_eq_fold]; exact h.fold_filter_drop_single _ _ src j

/-- The minimum along the last axis at `(p, q)`: the least of the entries `(p, q, k)` and the accumulator word's value. -/
theorem min_last_apply (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.minimumf.neutral φ hφ) (p : Fin a) (q : Fin b) :
    multiReduction .minimumf [2] ⟨2, ![a, b]⟩ src acc h hφ hacc (ix2 p q)
      = Finset.univ.fold min (Ideal.ofBits φ acc) fun k : Fin c => src (ix3 p q k) :=
  (min_single src acc h hφ hacc (ix2 p q)).trans
    (Finset.fold_congr fun k _ => congrArg src (funext fun ax => Fin.ext (by
      match ax with | ⟨0, _⟩ => rfl | ⟨1, _⟩ => rfl | ⟨2, _⟩ => rfl)))

/-- The minimum along the middle axis at `(p, r)`: the least of the entries `(p, k, r)` and the accumulator word's value. -/
theorem min_mid_apply (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.minimumf.neutral φ hφ) (p : Fin a) (r : Fin c) :
    multiReduction .minimumf [1] ⟨2, ![a, c]⟩ src acc h hφ hacc (ix2 p r)
      = Finset.univ.fold min (Ideal.ofBits φ acc) fun k : Fin b => src (ix3 p k r) :=
  (min_single src acc h hφ hacc (ix2 p r)).trans
    (Finset.fold_congr fun k _ => congrArg src (funext fun ax => Fin.ext (by
      match ax with | ⟨0, _⟩ => rfl | ⟨1, _⟩ => rfl | ⟨2, _⟩ => rfl)))

end Reduce

/-! ## The batched product that contracts the last axis of both operands -/

section Product
variable {B M N K : ℕ}

/-- Its dimension numbers, as a record over their well-formedness evidence. -/
abbrev lastDims (wf : DotDims.WF (⟨3, ![B, M, K]⟩ : Shape) ⟨3, ![B, N, K]⟩ ⟨3, ![B, M, N]⟩ [2] [2] [1] [1] [0] [0]) :
    DotDims (⟨3, ![B, M, K]⟩ : Shape) ⟨3, ![B, N, K]⟩ ⟨3, ![B, M, N]⟩ := ⟨[2], [2], [1], [1], [0], [0], wf⟩

variable (wf : DotDims.WF (⟨3, ![B, M, K]⟩ : Shape) ⟨3, ![B, N, K]⟩ ⟨3, ![B, M, N]⟩ [2] [2] [1] [1] [0] [0])

theorem lhs_axis0 (j : (⟨3, ![B, M, N]⟩ : Shape).Idx) (q : (lastDims wf).contr.Idx) :
    ((lastDims wf).lhsIdx j q 0).val = (j 0).val := by
  unfold DotDims.lhsIdx
  rw [dif_pos (show (0 : Fin (⟨3, ![B, M, K]⟩ : Shape).rank) ∈ (lastDims wf).lhsBatch from List.mem_singleton.mpr rfl)]
  rfl
theorem lhs_axis1 (j : (⟨3, ![B, M, N]⟩ : Shape).Idx) (q : (lastDims wf).contr.Idx) :
    ((lastDims wf).lhsIdx j q 1).val = (j 1).val := by
  unfold DotDims.lhsIdx
  rw [dif_neg (show ¬(1 : Fin (⟨3, ![B, M, K]⟩ : Shape).rank) ∈ (lastDims wf).lhsBatch from
      fun h => Nat.one_ne_zero (congrArg Fin.val (List.mem_singleton.mp h))),
    dif_pos (show (1 : Fin (⟨3, ![B, M, K]⟩ : Shape).rank) ∈ (lastDims wf).lhsNonContracting from List.mem_singleton.mpr rfl)]
  rfl
theorem lhs_axis2 (j : (⟨3, ![B, M, N]⟩ : Shape).Idx) (q : (lastDims wf).contr.Idx) :
    ((lastDims wf).lhsIdx j q 2).val = (q ⟨0, Nat.one_pos⟩).val :=
  (lastDims wf).lhsIdx_val_of_single rfl j q
theorem rhs_axis0 (j : (⟨3, ![B, M, N]⟩ : Shape).Idx) (q : (lastDims wf).contr.Idx) :
    ((lastDims wf).rhsIdx j q 0).val = (j 0).val := by
  unfold DotDims.rhsIdx
  rw [dif_pos (show (0 : Fin (⟨3, ![B, N, K]⟩ : Shape).rank) ∈ (lastDims wf).rhsBatch from List.mem_singleton.mpr rfl)]
  rfl
theorem rhs_axis1 (j : (⟨3, ![B, M, N]⟩ : Shape).Idx) (q : (lastDims wf).contr.Idx) :
    ((lastDims wf).rhsIdx j q 1).val = (j 2).val := by
  unfold DotDims.rhsIdx
  rw [dif_neg (show ¬(1 : Fin (⟨3, ![B, N, K]⟩ : Shape).rank) ∈ (lastDims wf).rhsBatch from
      fun h => Nat.one_ne_zero (congrArg Fin.val (List.mem_singleton.mp h))),
    dif_pos (show (1 : Fin (⟨3, ![B, N, K]⟩ : Shape).rank) ∈ (lastDims wf).rhsNonContracting from List.mem_singleton.mpr rfl)]
  rfl
theorem rhs_axis2 (j : (⟨3, ![B, M, N]⟩ : Shape).Idx) (q : (lastDims wf).contr.Idx) :
    ((lastDims wf).rhsIdx j q 2).val = (q ⟨0, Nat.one_pos⟩).val :=
  (lastDims wf).rhsIdx_val_of_single rfl j q

/-- The left operand's index at result index (b, p, q) and contraction coordinate k is (b, p, k). -/
theorem lhsIdx_ix3 (b : Fin B) (p : Fin M) (q : Fin N) (k : Fin K) :
    (lastDims wf).lhsIdx (ix3 b p q) ((contrEquiv1 (lastDims wf) K rfl rfl).symm k) = ix3 b p k :=
  funext fun ax => Fin.ext (by
    have hk := contrEquiv1_symm_val (lastDims wf) K rfl rfl k
    match ax with
    | ⟨0, _⟩ => exact lhs_axis0 wf _ _
    | ⟨1, _⟩ => exact lhs_axis1 wf _ _
    | ⟨2, _⟩ => exact (lhs_axis2 wf _ _).trans hk)

/-- The right operand's index at result index (b, p, q) and contraction coordinate k is (b, q, k). -/
theorem rhsIdx_ix3 (b : Fin B) (p : Fin M) (q : Fin N) (k : Fin K) :
    (lastDims wf).rhsIdx (ix3 b p q) ((contrEquiv1 (lastDims wf) K rfl rfl).symm k) = ix3 b q k :=
  funext fun ax => Fin.ext (by
    have hk := contrEquiv1_symm_val (lastDims wf) K rfl rfl k
    match ax with
    | ⟨0, _⟩ => exact rhs_axis0 wf _ _
    | ⟨1, _⟩ => exact rhs_axis1 wf _ _
    | ⟨2, _⟩ => exact (rhs_axis2 wf _ _).trans hk)

/-- The product into the zero accumulator at (b, p, q): the sum over the contracted coordinate. -/
theorem matmul_zero_last_apply {φ₁ φ₂ : FTy} (prec : Option ContractPrecision)
    (lhs : FVec Ideal ⟨3, ![B, M, K]⟩ φ₁) (rhs : FVec Ideal ⟨3, ![B, N, K]⟩ φ₂) (b : Fin B) (p : Fin M) (q : Fin N) :
    FloatOps.matmul (lastDims wf) prec lhs rhs (constant ⟨3, ![B, M, N]⟩ .f32 0x00000000#32) (ix3 b p q)
      = ∑ k : Fin K, lhs (ix3 b p k) * rhs (ix3 b q k) := by
  rw [Ideal.matmul_constant_zero_apply, ← Equiv.sum_comp (contrEquiv1 (lastDims wf) K rfl rfl).symm]
  refine Finset.sum_congr rfl fun k _ => ?_
  rw [lhsIdx_ix3 wf b p q k, rhsIdx_ix3 wf b p q k]

end Product

end Cert.Rank3

end
-- ==== Proof.LibKeepdims.lean ====
/-
  Column forms of the keepdims layout operations read at an index given by coordinates: a vector `[a]` viewed as a
  column `[a, 1]`, and a column `[a, 1]` laid along every column of an `[a, b]` matrix.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibRowSum.lean ====
/-
  A lane sum read at an index given by coordinates: for an `[a, b]` array summed over its last axis, over the extended
  reals, the entry `p` of the result is the sum over `k` of the array at `(p, k)`.
-/
import Idealize.ShloMosaic.Lib.ValueIdx
import Idealize.ShloMosaic.PureOps.Ideal.Laws

noncomputable section

namespace Cert.LibRowSum

open Idealize.ShloMosaic Idealize.ShloMosaic.ValueIdx

/-- A `vector.multi_reduction <add>` over axis 1 of an `[a, b]` array reads, at `p`, the sum of row `p`. -/
theorem multiReduction_add_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (funext fun ax => Fin.ext (by
    match ax with
    | ⟨0, _⟩ => rfl
    | ⟨1, _⟩ => rfl))

end Cert.LibRowSum

end
-- ==== Proof.LibColSum.lean ====
/-
  A sum over the leading axis read at an index given by coordinates: for an `[a, b]` array summed over its first
  axis, over the extended reals, the entry `q` of the result is the sum over `k` of the array at `(k, q)`.
-/
import Idealize.ShloMosaic.Lib.ValueIdx
import Idealize.ShloMosaic.PureOps.Ideal.Laws

noncomputable section

namespace Cert.LibColSum

open Idealize.ShloMosaic Idealize.ShloMosaic.ValueIdx

/-- A `vector.multi_reduction <add>` over axis 0 of an `[a, b]` array reads, at `q`, the sum of column `q`. -/
theorem multiReduction_add_cols {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  exact Finset.sum_congr rfl fun k _ => congrArg src (funext fun ax => Fin.ext (by
    match ax with
    | ⟨0, _⟩ => rfl
    | ⟨1, _⟩ => rfl))

end Cert.LibColSum

end
-- ==== Proof.LibMaxLast.lean ====
/-
  A maximum along the last axis of an `[a, b, c]` array, over the extended reals, read at an index given by
  coordinates. Both the in-kernel reduction and the host's one-operand reduction with a `maximum` body are, at
  `(p, q)`, the fold of `max` over the last coordinate `k` of the entries `(p, q, k)`, started from the start value
  (the accumulator word's value in the kernel, the initial value's element on the host).
-/
import Idealize.ShloMosaic.Lib.ValueIdx
import Idealize.ShloMosaic.PureOps.Reduce
import Idealize.ShloMosaic.PureOps.Ideal.Laws

noncomputable section

namespace Cert.LibMaxLast

open Idealize.ShloMosaic Idealize.ShloMosaic.ValueIdx

variable {φ : FTy} {a b c : ℕ}

/-- Inserting the coordinate `k` on the last axis of the index `(p, q)` gives `(p, q, k)`. -/
theorem lift_last (h : (⟨3, ![a, b, c]⟩ : Shape).Reduces [2] ⟨2, ![a, b]⟩) (p : Fin a) (q : Fin b) (k : Fin c) :
    h.lift (ix2 p q) k = ix3 p q k :=
  funext fun ax => Fin.ext (by
    match ax with
    | ⟨0, _⟩ => rfl
    | ⟨1, _⟩ => rfl
    | ⟨2, _⟩ => rfl)

/-- The in-kernel maximum along the last axis at `(p, q)`: the greatest of the entries `(p, q, k)` and the
    accumulator word's value. -/
theorem max_last_apply (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.maximumf.neutral φ hφ) (p : Fin a) (q : Fin b) :
    multiReduction .maximumf [2] ⟨2, ![a, b]⟩ src acc h hφ hacc (ix2 p q)
      = Finset.univ.fold max (Ideal.ofBits φ acc) fun k : Fin c => src (ix3 p q k) :=
  (Ideal.multiReduction_maximumf_single src acc h hφ hacc (ix2 p q)).trans
    (Finset.fold_congr fun k _ => congrArg src (lift_last h p q k))

/-- The host's maximum along the last axis at `(p, q)`: the greatest of the entries `(p, q, k)` and the initial value. -/
theorem hostMax_last_apply {u : Shape} (x : (⟨3, ![a, b, c]⟩ : Shape).Idx → Ideal φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce FloatOps.maximumf x init h' hu (ix2 p q)
      = Finset.univ.fold max (init (Shape.Idx.first hu)) fun k : Fin c => x (ix3 p q k) :=
  (Host.reduce_eq_fold_single FloatOps.maximumf x init h' h hu (ix2 p q)).trans
    (Finset.fold_congr fun k _ => congrArg x (lift_last h p q k))

end Cert.LibMaxLast

end
-- ==== Proof.BlockValue.lean ====
/-
  One grid step's arithmetic, read at an index over the extended reals.

  From a block `x` of queries [8, 256, 128] and a block `y` of documents [8, 512, 128] the step forms the batched product
  that contracts the feature axis (the narrowing of the operands to a shorter float format is the identity here), takes
  the maximum over the document tokens from minus infinity, sums over the query tokens, sums over the block's eight
  batches, and adds that one number to every entry of the [8, 128] running-sum block. So at every entry `(a, l)` the
  step's result is the running sum there plus the block's sum
  `∑ j, ∑ r, max over k of ∑ e, x (j, r, e) * y (j, k, e)`.
-/
import proofs.«109188_j52664888983644_1_alg».proof.Proof.Gen.KernelIdeal.Skeleton
import proofs.«109188_j52664888983644_1_alg».proof.Proof.LibRank3
import proofs.«109188_j52664888983644_1_alg».proof.Proof.LibKeepdims
import proofs.«109188_j52664888983644_1_alg».proof.Proof.LibRowSum
import proofs.«109188_j52664888983644_1_alg».proof.Proof.LibColSum
import proofs.«109188_j52664888983644_1_alg».proof.Proof.LibMaxLast
import Idealize.ShloMosaic.Lib.Pipeline.Value

noncomputable section

namespace Cert.KernelIdeal.BlockValue

open Cert.KernelIdeal Cert.KernelIdeal.Gen
open Idealize.ShloMosaic Idealize.ShloMosaic.ValueIdx

/-- A block's sum: over its eight batches and their query tokens, the best similarity against the block's documents. -/
def blockSum (x : Vec Ideal S8x256x128 .f32) (y : Vec Ideal S8x512x128 .f32) : EReal :=
  ∑ j : Fin 8, ∑ r : Fin 256,
    Finset.univ.fold max (Ideal.ofBits .f32 0xFF800000#32) fun k : Fin 512 => ∑ e : Fin 128, x (ix3 j r e) * y (ix3 j k e)

/-! ## The step's stages -/

/-- The block's similarities: the batched product into the zero accumulator. -/
def sims (x : Vec Ideal S8x256x128 .f32) (y : Vec Ideal S8x512x128 .f32) : FVec Ideal S8x256x512 .f32 :=
  matmul dot_S8x256x128_S8x512x128_S8x256x512_2_2_1_1_0_0 none (truncf .bf16 x bitsLt_bf16_f32)
    (truncf .bf16 y bitsLt_bf16_f32) (constant S8x256x512 .f32 0x00000000#32)

/-- The best similarity of every query token of the block. -/
def bests (x : Vec Ideal S8x256x128 .f32) (y : Vec Ideal S8x512x128 .f32) : FVec Ideal S8x256 .f32 :=
  multiReduction .maximumf [2] S8x256 (sims x y) 0xFF800000#32 reduces_S8x256x512_S8x256 (.inl rfl) rfl

/-- Every batch's total over its query tokens. -/
def rowTotals (x : Vec Ideal S8x256x128 .f32) (y : Vec Ideal S8x512x128 .f32) : FVec Ideal S8 .f32 :=
  multiReduction .add [1] S8 (bests x y) 0x00000000#32 reduces_S8x256_S8 (.inl rfl) rfl

/-- The block's total over its batches, as a one-entry array. -/
def blockTotal (x : Vec Ideal S8x256x128 .f32) (y : Vec Ideal S8x512x128 .f32) : FVec Ideal S1 .f32 :=
  multiReduction .add [0] S1 (shapeCast S8x1 (rowTotals x y) shapeCasts_S8_S8x1) 0x00000000#32 reduces_S8x1_S1 (.inl rfl) rfl

/-- One step: the running sum `acc` plus the block's total laid over all of [8, 128]. -/
def step (x : Vec Ideal S8x256x128 .f32) (y : Vec Ideal S8x512x128 .f32) (acc : Vec Ideal S8x128 .f32) : FVec Ideal S8x128 .f32 :=
  shapeCast S8x128 (addf acc (broadcastTo S8x128
    (shapeCast S1x1 (shapeCast S1x1 (blockTotal x y) shapeCasts_S1_S1x1) shapeCasts_S1x1_S1x1) broadcasts_S1x1_S8x128))
    shapeCasts_S8x128_S8x128

/-- The positive side's payload is one step over the positive documents; -/
theorem pos_payload_eq_step (x : Vec Ideal S8x256x128 .f32) (y : Vec Ideal S8x512x128 .f32) (acc : Vec Ideal S8x128 .f32) :
    k0_pay5 (F := Ideal) x y acc = step x y acc := rfl

/-- the negative side's is one step over the negative documents. -/
theorem neg_payload_eq_step (x : Vec Ideal S8x256x128 .f32) (z : Vec Ideal S8x512x128 .f32) (acc : Vec Ideal S8x128 .f32) :
    k0_pay1 (F := Ideal) (k0_pay6 x z acc) = step x z acc := rfl

/-! ## The stages at an index -/

theorem sims_apply (x : Vec Ideal S8x256x128 .f32) (y : Vec Ideal S8x512x128 .f32) (j : Fin 8) (r : Fin 256) (k : Fin 512) :
    sims x y (ix3 j r k) = ∑ e : Fin 128, x (ix3 j r e) * y (ix3 j k e) :=
  Cert.Rank3.matmul_zero_last_apply dot_S8x256x128_S8x512x128_S8x256x512_2_2_1_1_0_0_wf none
    (truncf .bf16 x bitsLt_bf16_f32) (truncf .bf16 y bitsLt_bf16_f32) j r k

theorem bests_apply (x : Vec Ideal S8x256x128 .f32) (y : Vec Ideal S8x512x128 .f32) (j : Fin 8) (r : Fin 256) :
    bests x y (ix2 j r)
      = Finset.univ.fold max (Ideal.ofBits .f32 0xFF800000#32) fun k : Fin 512 => ∑ e : Fin 128, x (ix3 j r e) * y (ix3 j k e) :=
  (Cert.LibMaxLast.max_last_apply (sims x y) 0xFF800000#32 reduces_S8x256x512_S8x256 (.inl rfl) rfl j r).trans
    (Finset.fold_congr fun k _ => sims_apply x y j r k)

theorem rowTotals_apply (x : Vec Ideal S8x256x128 .f32) (y : Vec Ideal S8x512x128 .f32) (j : Fin 8) :
    rowTotals x y (ix1 j) = ∑ r : Fin 256, bests x y (ix2 j r) :=
  Cert.LibRowSum.multiReduction_add_rows (bests x y) 0x00000000#32 reduces_S8x256_S8 (.inl rfl) rfl j

theorem blockTotal_apply (x : Vec Ideal S8x256x128 .f32) (y : Vec Ideal S8x512x128 .f32) (u : Fin 1) :
    blockTotal x y (ix1 u) = blockSum x y := by
  refine (Cert.LibColSum.multiReduction_add_cols (shapeCast S8x1 (rowTotals x y) shapeCasts_S8_S8x1) 0x00000000#32
    reduces_S8x1_S1 (.inl rfl) rfl u).trans ?_
  unfold blockSum
  refine Finset.sum_congr rfl fun j _ => ?_
  rw [Cert.LibKeepdims.shapeCast_a_a1_apply (rowTotals x y) shapeCasts_S8_S8x1 j u, rowTotals_apply]
  exact Finset.sum_congr rfl fun r _ => bests_apply x y j r

/-- One number laid over all of [8, 128] reads that number at every entry. -/
theorem spread_apply {α : Type} (v : S1x1.Idx → α) (a : Fin 8) (l : Fin 128) :
    broadcastTo S8x128 v broadcasts_S1x1_S8x128 (ix2 a l) = v (ix2 (0 : Fin 1) (0 : Fin 1)) :=
  broadcastTo_apply v broadcasts_S1x1_S8x128 (ix2 a l) (ix2 (0 : Fin 1) (0 : Fin 1)) fun ax => by
    match ax with
    | ⟨0, _⟩ => exact (if_pos rfl).symm
    | ⟨1, _⟩ => exact (if_pos rfl).symm

/-- THE STEP AT AN ENTRY: the running sum there plus the block's sum. -/
theorem step_apply (x : Vec Ideal S8x256x128 .f32) (y : Vec Ideal S8x512x128 .f32) (acc : Vec Ideal S8x128 .f32)
    (a : Fin 8) (l : Fin 128) : step x y acc (ix2 a l) = acc (ix2 a l) + blockSum x y := by
  unfold step
  rw [shapeCast_self]
  show acc (ix2 a l) + broadcastTo S8x128 _ broadcasts_S1x1_S8x128 (ix2 a l) = _
  rw [spread_apply, shapeCast_self,
    Cert.LibKeepdims.shapeCast_a_a1_apply (blockTotal x y) shapeCasts_S1_S1x1 (0 : Fin 1) (0 : Fin 1), blockTotal_apply]

/-- The zero blocks the first step stores are zero at every entry. -/
theorem zero_pos_apply (i : S8x128.Idx) : k0_pay2 (F := Ideal) i = 0 := by
  unfold k0_pay2
  rw [shapeCast_self]
  exact Ideal.ofBits_zero_f32
theorem zero_neg_apply (i : S8x128.Idx) : k0_pay3 (F := Ideal) i = 0 := by
  unfold k0_pay3
  rw [shapeCast_self]
  exact Ideal.ofBits_zero_f32

end Cert.KernelIdeal.BlockValue

end
-- ==== Proof.LibSumBlocks.lean ====
/-
  A sum over a range of a * b consecutive numbers, cut into a consecutive blocks of b numbers each: in any commutative
  monoid the whole sum is the sum over the blocks of each block's sum, whatever function names the member k of block j,
  as long as that member is the number b * j + k. For four blocks the outer sum is written out as a chain of additions
  from the left, which is the order in which an accumulator that is updated once per block builds it.
-/
import Mathlib.Algebra.BigOperators.Fin
import Mathlib.Algebra.BigOperators.Group.Finset.Sigma
import Mathlib.Logic.Equiv.Fin.Basic

namespace Cert.LibSumBlocks

variable {M : Type*} [AddCommMonoid M]

/-- THE CUT: the sum over all n = a * b numbers is the double sum over block j and place k of the value at b * j + k. -/
theorem sum_blocks {a b n : ℕ} (hn : a * b = n) (f : Fin n → M) (g : Fin a → Fin b → Fin n)
    (hg : ∀ j k, (g j k).val = b * j.val + k.val) :
    ∑ k, f k = ∑ j, ∑ k', f (g j k') := by
  subst hn
  rw [← Fintype.sum_prod_type']
  refine (Fintype.sum_equiv finProdFinEquiv _ _ fun x => ?_).symm
  refine congrArg f (Fin.ext ?_)
  rw [hg, finProdFinEquiv_apply_val, Nat.add_comm]

/-- Four blocks, accumulated from the left starting at zero. -/
theorem sum_four_blocks {b n : ℕ} (hn : 4 * b = n) (f : Fin n → M) (g : Fin 4 → Fin b → Fin n)
    (hg : ∀ j k, (g j k).val = b * j.val + k.val) :
    ((((0 : M) + ∑ k, f (g 0 k)) + ∑ k, f (g 1 k)) + ∑ k, f (g 2 k)) + ∑ k, f (g 3 k) = ∑ k, f k := by
  rw [sum_blocks hn f g hg, Fin.sum_univ_four, zero_add]

end Cert.LibSumBlocks
-- ==== Proof.ScoreSpec.lean ====
/-
  The late-interaction score and the triplet loss, as functions of whole arrays over the extended reals.

  For queries `q` of shape [256, 256, 128] and documents `d` of shape [256, 512, 128]: the similarity of query token `r`
  and document token `k` of batch `b` is the inner product over the 128 features; a query token's best similarity is the
  maximum over the 512 document tokens (a fold of `max` from minus infinity); a batch's score is the sum of its 256 query
  tokens' best similarities; the score is the sum over the 256 batches. The loss of a triple `(q, p, n)` is
  `max (margin + score q n - score q p) 0`.

  The 256 batches are also cut into 32 consecutive blocks of 8: the score is the sum over the blocks of each block's sum,
  and the running sum after block `n`, which grows by one block's sum per step, ends at the score after block 31.
-/
import Idealize.ShloMosaic.Lib.ValueIdx
import Idealize.ShloMosaic.PureOps.Ideal
import proofs.«109188_j52664888983644_1_alg».proof.Proof.LibSumBlocks

noncomputable section

namespace Cert.TripletScore

open Idealize.ShloMosaic Idealize.ShloMosaic.ValueIdx

/-- Queries: 256 batches of 256 tokens of 128 features. -/
abbrev Queries := (⟨3, ![256, 256, 128]⟩ : Shape).Idx → EReal
/-- Documents: 256 batches of 512 tokens of 128 features. -/
abbrev Docs := (⟨3, ![256, 512, 128]⟩ : Shape).Idx → EReal

/-- The inner product of query token `r` and document token `k` of batch `b`. -/
def sim (q : Queries) (d : Docs) (b r : Fin 256) (k : Fin 512) : EReal :=
  ∑ e : Fin 128, q (ix3 b r e) * d (ix3 b k e)

/-- A query token's best similarity: the maximum over the document tokens, from minus infinity. -/
def bestSim (q : Queries) (d : Docs) (b r : Fin 256) : EReal :=
  Finset.univ.fold max (Ideal.ofBits .f32 0xFF800000#32) fun k : Fin 512 => sim q d b r k

/-- A batch's score: the sum of its query tokens' best similarities. -/
def batchScore (q : Queries) (d : Docs) (b : Fin 256) : EReal := ∑ r : Fin 256, bestSim q d b r

/-- The score: the sum over the batches. -/
def score (q : Queries) (d : Docs) : EReal := ∑ b : Fin 256, batchScore q d b

/-- The triplet loss: the margin plus the negative's score minus the positive's, cut off below at zero. -/
def loss (q : Queries) (p n : Docs) : EReal :=
  max (Ideal.ofBits .f32 0x3E4CCCCD#32 + score q n - score q p) (Ideal.ofBits .f32 0x00000000#32)

/-! ## Blocks of eight batches -/

/-- Batch `j` of block `t`: the batch `8 t + j`. -/
def blockBatch (t : Fin 32) (j : Fin 8) : Fin 256 := ⟨8 * t.val + j.val, by have := t.isLt; have := j.isLt; omega⟩

/-- A block's sum: the scores of its eight batches. -/
def blockScore (q : Queries) (d : Docs) (t : Fin 32) : EReal := ∑ j : Fin 8, batchScore q d (blockBatch t j)

/-- The score is the sum of the 32 blocks' sums. -/
theorem score_eq_sum_blocks (q : Queries) (d : Docs) : score q d = ∑ t : Fin 32, blockScore q d t :=
  Cert.LibSumBlocks.sum_blocks (by norm_num : 32 * 8 = 256) (batchScore q d) blockBatch fun _ _ => rfl

/-- The running sum after block `n`: the sums of blocks 0 to `n`. -/
def running (q : Queries) (d : Docs) (n : ℕ) : EReal :=
  ∑ t ∈ Finset.range (n + 1), if h : t < 32 then blockScore q d ⟨t, h⟩ else 0

theorem running_zero (q : Queries) (d : Docs) : running q d 0 = blockScore q d ⟨0, by norm_num⟩ := by
  unfold running
  rw [Finset.sum_range_one, dif_pos (by norm_num : 0 < 32)]

theorem running_succ (q : Queries) (d : Docs) (n : ℕ) (h : n + 1 < 32) :
    running q d (n + 1) = running q d n + blockScore q d ⟨n + 1, h⟩ := by
  unfold running
  rw [Finset.sum_range_succ _ (n + 1), dif_pos h]

/-- After the last block the running sum is the score. -/
theorem running_last (q : Queries) (d : Docs) : running q d 31 = score q d := by
  rw [score_eq_sum_blocks]
  unfold running
  rw [← Fin.sum_univ_eq_sum_range (fun t => if h : t < 32 then blockScore q d ⟨t, h⟩ else 0) 32]
  exact Finset.sum_congr rfl fun t _ => dif_pos t.isLt

end Cert.TripletScore

end
-- ==== Proof.Accumulated.lean ====
/-
  The running sums across the grid.

  After the step at point `n` both running-sum buffers and both output blocks hold, at every entry, the sum of the block
  sums of points 0 to `n`: the positive side's against the positive documents, the negative side's against the negative
  ones. The step's three input blocks are rows `8 t` to `8 t + 7` of the three argument arrays, so the block sum of
  point `t` is the specification's sum over block `t` of the batches. By induction on the point: the first step starts
  from the zero blocks, every later step adds its block sum to what the step before left.
-/
import proofs.«109188_j52664888983644_1_alg».proof.Proof.Pieces
import proofs.«109188_j52664888983644_1_alg».proof.Proof.BlockValue
import proofs.«109188_j52664888983644_1_alg».proof.Proof.ScoreSpec

noncomputable section

namespace Cert.KernelIdeal.Running

open Cert.KernelIdeal Cert.KernelIdeal.Gen Cert.KernelIdeal.BlockValue Cert.TripletScore
open Idealize.ShloMosaic Idealize.ShloMosaic.TcCoe Idealize.ShloMosaic.ValueIdx Idealize.SL.Sem

/-! ## Each buffer after a point, as a payload of the point's blocks (any float instance) -/

section AnyInstance
variable {F : FTy → Type} [FloatOps F]
variable (m : (ℓ : Loc nD τ sig) → Buf (Elt F) ℓ)

theorem first_out_pos (c : Dev nD) (t : Fin cfg0.N) (h0 : t.val % 32 = 0) :
    (outsAt0 m c t.val t.isLt).1 = k0_pay5 (iblk m c 0 t) (iblk m c 1 t) k0_pay2 := by
  rw [outsAt0_A m c t h0]
  dsimp only
  exact Pieces.out_pos_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)
theorem first_out_neg (c : Dev nD) (t : Fin cfg0.N) (h0 : t.val % 32 = 0) :
    (outsAt0 m c t.val t.isLt).2.1 = k0_pay1 (k0_pay6 (iblk m c 0 t) (iblk m c 2 t) k0_pay3) := by
  rw [outsAt0_A m c t h0]
  dsimp only
  exact Pieces.out_neg_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)
theorem first_sum_pos (c : Dev nD) (t : Fin cfg0.N) (h0 : t.val % 32 = 0) :
    (outsAt0 m c t.val t.isLt).2.2.1 = k0_pay5 (iblk m c 0 t) (iblk m c 1 t) k0_pay2 := by
  rw [outsAt0_A m c t h0]
  dsimp only
  exact Pieces.sum_pos_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)
theorem first_sum_neg (c : Dev nD) (t : Fin cfg0.N) (h0 : t.val % 32 = 0) :
    (outsAt0 m c t.val t.isLt).2.2.2 = k0_pay1 (k0_pay6 (iblk m c 0 t) (iblk m c 2 t) k0_pay3) := by
  rw [outsAt0_A m c t h0]
  dsimp only
  exact Pieces.sum_neg_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)
theorem later_out_pos (c : Dev nD) (t : Fin cfg0.N) (h0 : ¬t.val % 32 = 0) :
    (outsAt0 m c t.val t.isLt).1 = k0_pay5 (iblk m c 0 t) (iblk m c 1 t) (outsAt0 m c (t.val - 1) (Nat.lt_of_le_of_lt (Nat.sub_le _ _) t.isLt)).2.2.1 := by
  rw [outsAt0_B m c t h0]
  dsimp only
  exact Pieces.out_pos_later c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2
theorem later_out_neg (c : Dev nD) (t : Fin cfg0.N) (h0 : ¬t.val % 32 = 0) :
    (outsAt0 m c t.val t.isLt).2.1 = k0_pay1 (k0_pay6 (iblk m c 0 t) (iblk m c 2 t) (outsAt0 m c (t.val - 1) (Nat.lt_of_le_of_lt (Nat.sub_le _ _) t.isLt)).2.2.2) := by
  rw [outsAt0_B m c t h0]
  dsimp only
  exact Pieces.out_neg_later c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2
theorem later_sum_pos (c : Dev nD) (t : Fin cfg0.N) (h0 : ¬t.val % 32 = 0) :
    (outsAt0 m c t.val t.isLt).2.2.1 = k0_pay5 (iblk m c 0 t) (iblk m c 1 t) (outsAt0 m c (t.val - 1) (Nat.lt_of_le_of_lt (Nat.sub_le _ _) t.isLt)).2.2.1 := by
  rw [outsAt0_B m c t h0]
  dsimp only
  exact Pieces.sum_pos_later c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2
theorem later_sum_neg (c : Dev nD) (t : Fin cfg0.N) (h0 : ¬t.val % 32 = 0) :
    (outsAt0 m c t.val t.isLt).2.2.2 = k0_pay1 (k0_pay6 (iblk m c 0 t) (iblk m c 2 t) (outsAt0 m c (t.val - 1) (Nat.lt_of_le_of_lt (Nat.sub_le _ _) t.isLt)).2.2.2) := by
  rw [outsAt0_B m c t h0]
  dsimp only
  exact Pieces.sum_neg_later c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

end AnyInstance

/-! ## Over the extended reals -/

variable (m : (ℓ : Loc nD τ sig) → Buf (Elt Ideal) ℓ)

/-- The three argument arrays as the region finds them. -/
abbrev qArr (c : Dev nD) : Queries := V m c main_arg0
abbrev pArr (c : Dev nD) : Docs := V m c main_arg1
abbrev nArr (c : Dev nD) : Docs := V m c main_arg2

/-- The three input blocks of point `t`. -/
abbrev qBlk (c : Dev nD) (t : Fin cfg0.N) : Vec Ideal S8x256x128 .f32 := iblk m c 0 t
abbrev pBlk (c : Dev nD) (t : Fin cfg0.N) : Vec Ideal S8x512x128 .f32 := iblk m c 1 t
abbrev nBlk (c : Dev nD) (t : Fin cfg0.N) : Vec Ideal S8x512x128 .f32 := iblk m c 2 t

/-- A grid point as a block number. -/
def blockOf (t : Fin cfg0.N) : Fin 32 := ⟨t.val, lt_of_lt_of_eq t.isLt N_0⟩

/-- Every window's block index at point `t` is `(t, 0, 0)`: decided over the grid. -/
theorem idx_facts : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0) :=
  (by decide +kernel : ∀ t : Fin grid0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0))

/-- The query block of point `t` at `(j, r, e)` is the query array at batch `8 t + j`. -/
theorem qBlk_apply (c : Dev nD) (t : Fin cfg0.N) (j : Fin 8) (r : Fin 256) (e : Fin 128) :
    qBlk m c t (ix3 j r e) = qArr m c (ix3 (blockBatch (blockOf t) j) r e) := by
  have hi := (idx_facts t).1
  unfold qBlk iblk
  rw [View.read_apply]
  show V m c main_arg0 _ = V m c main_arg0 _
  congr 1
  funext a
  apply Fin.ext
  match a with
  | ⟨0, _⟩ => show win0_0.index t 0 * 8 + 1 * j.val = 8 * t.val + j.val; rw [hi.1]; omega
  | ⟨1, _⟩ => show win0_0.index t 1 * 256 + 1 * r.val = r.val; rw [hi.2.1]; omega
  | ⟨2, _⟩ => show win0_0.index t 2 * 128 + 1 * e.val = e.val; rw [hi.2.2]; omega

/-- The positive document block of point `t` at `(j, k, e)` is the positive array at batch `8 t + j`. -/
theorem pBlk_apply (c : Dev nD) (t : Fin cfg0.N) (j : Fin 8) (k : Fin 512) (e : Fin 128) :
    pBlk m c t (ix3 j k e) = pArr m c (ix3 (blockBatch (blockOf t) j) k e) := by
  have hi := (idx_facts t).2.1
  unfold pBlk iblk
  rw [View.read_apply]
  show V m c main_arg1 _ = V m c main_arg1 _
  congr 1
  funext a
  apply Fin.ext
  match a with
  | ⟨0, _⟩ => show win0_1.index t 0 * 8 + 1 * j.val = 8 * t.val + j.val; rw [hi.1]; omega
  | ⟨1, _⟩ => show win0_1.index t 1 * 512 + 1 * k.val = k.val; rw [hi.2.1]; omega
  | ⟨2, _⟩ => show win0_1.index t 2 * 128 + 1 * e.val = e.val; rw [hi.2.2]; omega

/-- The negative document block of point `t` at `(j, k, e)` is the negative array at batch `8 t + j`. -/
theorem nBlk_apply (c : Dev nD) (t : Fin cfg0.N) (j : Fin 8) (k : Fin 512) (e : Fin 128) :
    nBlk m c t (ix3 j k e) = nArr m c (ix3 (blockBatch (blockOf t) j) k e) := by
  have hi := (idx_facts t).2.2
  unfold nBlk iblk
  rw [View.read_apply]
  show V m c main_arg2 _ = V m c main_arg2 _
  congr 1
  funext a
  apply Fin.ext
  match a with
  | ⟨0, _⟩ => show win0_2.index t 0 * 8 + 1 * j.val = 8 * t.val + j.val; rw [hi.1]; omega
  | ⟨1, _⟩ => show win0_2.index t 1 * 512 + 1 * k.val = k.val; rw [hi.2.1]; omega
  | ⟨2, _⟩ => show win0_2.index t 2 * 128 + 1 * e.val = e.val; rw [hi.2.2]; omega

/-- The block sum of point `t` against the positive documents is the specification's sum over block `t`; -/
theorem blockSum_pos (c : Dev nD) (t : Fin cfg0.N) :
    blockSum (qBlk m c t) (pBlk m c t) = blockScore (qArr m c) (pArr m c) (blockOf t) := by
  unfold blockSum blockScore batchScore bestSim sim
  refine Finset.sum_congr rfl fun j _ => Finset.sum_congr rfl fun r _ => Finset.fold_congr fun k _ =>
    Finset.sum_congr rfl fun e _ => ?_
  rw [qBlk_apply, pBlk_apply]

/-- against the negative documents likewise. -/
theorem blockSum_neg (c : Dev nD) (t : Fin cfg0.N) :
    blockSum (qBlk m c t) (nBlk m c t) = blockScore (qArr m c) (nArr m c) (blockOf t) := by
  unfold blockSum blockScore batchScore bestSim sim
  refine Finset.sum_congr rfl fun j _ => Finset.sum_congr rfl fun r _ => Finset.fold_congr fun k _ =>
    Finset.sum_congr rfl fun e _ => ?_
  rw [qBlk_apply, nBlk_apply]

/-- A step from a running sum that is one number `s` everywhere leaves `s` plus the block sum everywhere; -/
theorem step_const (x : Vec Ideal S8x256x128 .f32) (y : Vec Ideal S8x512x128 .f32) (s : EReal) :
    step x y (fun _ => s) = fun _ => s + blockSum x y := by
  funext i
  obtain ⟨a, l, rfl⟩ : ∃ (a : Fin 8) (l : Fin 128), i = ix2 a l := ⟨i 0, i 1, eq_ix2 i⟩
  exact step_apply x y _ a l

/-- from either zero block, the block sum everywhere. -/
theorem step_zero_pos (x : Vec Ideal S8x256x128 .f32) (y : Vec Ideal S8x512x128 .f32) :
    step x y (k0_pay2 (F := Ideal)) = fun _ => blockSum x y := by
  funext i
  obtain ⟨a, l, rfl⟩ : ∃ (a : Fin 8) (l : Fin 128), i = ix2 a l := ⟨i 0, i 1, eq_ix2 i⟩
  rw [step_apply, zero_pos_apply, zero_add]
theorem step_zero_neg (x : Vec Ideal S8x256x128 .f32) (y : Vec Ideal S8x512x128 .f32) :
    step x y (k0_pay3 (F := Ideal)) = fun _ => blockSum x y := by
  funext i
  obtain ⟨a, l, rfl⟩ : ∃ (a : Fin 8) (l : Fin 128), i = ix2 a l := ⟨i 0, i 1, eq_ix2 i⟩
  rw [step_apply, zero_neg_apply, zero_add]

/-- The first point's positive payload: the running sum after block 0. -/
theorem first_pos (c : Dev nD) (h : 0 < cfg0.N) :
    k0_pay5 (F := Ideal) (qBlk m c ⟨0, h⟩) (pBlk m c ⟨0, h⟩) (k0_pay2 (F := Ideal)) = fun _ => running (qArr m c) (pArr m c) 0 := by
  refine (pos_payload_eq_step (qBlk m c ⟨0, h⟩) (pBlk m c ⟨0, h⟩) (k0_pay2 (F := Ideal))).trans ?_
  refine (step_zero_pos (qBlk m c ⟨0, h⟩) (pBlk m c ⟨0, h⟩)).trans ?_
  rw [blockSum_pos m c ⟨0, h⟩, running_zero]
  rfl
theorem first_neg (c : Dev nD) (h : 0 < cfg0.N) :
    k0_pay1 (F := Ideal) (k0_pay6 (qBlk m c ⟨0, h⟩) (nBlk m c ⟨0, h⟩) (k0_pay3 (F := Ideal))) = fun _ => running (qArr m c) (nArr m c) 0 := by
  refine (neg_payload_eq_step (qBlk m c ⟨0, h⟩) (nBlk m c ⟨0, h⟩) (k0_pay3 (F := Ideal))).trans ?_
  refine (step_zero_neg (qBlk m c ⟨0, h⟩) (nBlk m c ⟨0, h⟩)).trans ?_
  rw [blockSum_neg m c ⟨0, h⟩, running_zero]
  rfl

/-- A later point's positive payload over the running sum after block `n`: the running sum after block `n + 1`. -/
theorem later_pos (c : Dev nD) (n : ℕ) (h : n + 1 < cfg0.N) :
    k0_pay5 (F := Ideal) (qBlk m c ⟨n + 1, h⟩) (pBlk m c ⟨n + 1, h⟩) (fun _ => running (qArr m c) (pArr m c) n)
      = fun _ => running (qArr m c) (pArr m c) (n + 1) := by
  refine (pos_payload_eq_step (qBlk m c ⟨n + 1, h⟩) (pBlk m c ⟨n + 1, h⟩) _).trans ?_
  refine (step_const (qBlk m c ⟨n + 1, h⟩) (pBlk m c ⟨n + 1, h⟩) _).trans ?_
  rw [blockSum_pos m c ⟨n + 1, h⟩, running_succ _ _ n (lt_of_lt_of_eq h N_0)]
  rfl
theorem later_neg (c : Dev nD) (n : ℕ) (h : n + 1 < cfg0.N) :
    k0_pay1 (F := Ideal) (k0_pay6 (qBlk m c ⟨n + 1, h⟩) (nBlk m c ⟨n + 1, h⟩) (fun _ => running (qArr m c) (nArr m c) n))
      = fun _ => running (qArr m c) (nArr m c) (n + 1) := by
  refine (neg_payload_eq_step (qBlk m c ⟨n + 1, h⟩) (nBlk m c ⟨n + 1, h⟩) _).trans ?_
  refine (step_const (qBlk m c ⟨n + 1, h⟩) (nBlk m c ⟨n + 1, h⟩) _).trans ?_
  rw [blockSum_neg m c ⟨n + 1, h⟩, running_succ _ _ n (lt_of_lt_of_eq h N_0)]
  rfl

/-- THE INVARIANT: after point `n` the two output blocks and the two running-sum buffers hold the running sums after
    block `n` at every entry. -/
theorem sums_eq (c : Dev nD) : ∀ (n : ℕ) (h : n < cfg0.N),
    (outsAt0 m c n h).1 = (fun _ => running (qArr m c) (pArr m c) n)
    ∧ (outsAt0 m c n h).2.1 = (fun _ => running (qArr m c) (nArr m c) n)
    ∧ (outsAt0 m c n h).2.2.1 = (fun _ => running (qArr m c) (pArr m c) n)
    ∧ (outsAt0 m c n h).2.2.2 = (fun _ => running (qArr m c) (nArr m c) n)
  | 0, h =>
    ⟨(first_out_pos m c ⟨0, h⟩ rfl).trans (first_pos m c h), (first_out_neg m c ⟨0, h⟩ rfl).trans (first_neg m c h),
      (first_sum_pos m c ⟨0, h⟩ rfl).trans (first_pos m c h), (first_sum_neg m c ⟨0, h⟩ rfl).trans (first_neg m c h)⟩
  | n + 1, h => by
    obtain ⟨-, -, ihp, ihn⟩ := sums_eq c n (Nat.lt_of_succ_lt h)
    have hN : cfg0.N = 32 := N_0
    have hB : ¬(⟨n + 1, h⟩ : Fin cfg0.N).val % 32 = 0 := by dsimp only; omega
    have ep : (outsAt0 m c ((⟨n + 1, h⟩ : Fin cfg0.N).val - 1) (Nat.lt_of_le_of_lt (Nat.sub_le _ _) (⟨n + 1, h⟩ : Fin cfg0.N).isLt)).2.2.1
        = fun _ => running (qArr m c) (pArr m c) n := ihp
    have en : (outsAt0 m c ((⟨n + 1, h⟩ : Fin cfg0.N).val - 1) (Nat.lt_of_le_of_lt (Nat.sub_le _ _) (⟨n + 1, h⟩ : Fin cfg0.N).isLt)).2.2.2
        = fun _ => running (qArr m c) (nArr m c) n := ihn
    refine ⟨(later_out_pos m c ⟨n + 1, h⟩ hB).trans ?_, (later_out_neg m c ⟨n + 1, h⟩ hB).trans ?_,
      (later_sum_pos m c ⟨n + 1, h⟩ hB).trans ?_, (later_sum_neg m c ⟨n + 1, h⟩ hB).trans ?_⟩
    · rw [ep]; exact later_pos m c n h
    · rw [en]; exact later_neg m c n h
    · rw [ep]; exact later_pos m c n h
    · rw [en]; exact later_neg m c n h

end Cert.KernelIdeal.Running

end
-- ==== Proof.KernelRun.lean ====
/-
  The kernel program's result over the extended reals.

  Each output tile [8, 128] is written back once, after the last grid point, and that block is the whole array: so the
  positive tile ends holding the positive's score at every entry and the negative tile the negative's. The host
  operations after the call take entry (0, 0) of each tile, add the margin to the negative's score, subtract the
  positive's, and cut off below at zero: the result is the loss of the three argument arrays.
-/
import proofs.«109188_j52664888983644_1_alg».proof.Proof.Accumulated
import Idealize.ShloMosaic.Lib.Pipeline.Value
import Idealize.ShloMosaic.Lib.StableHlo.Run
import Idealize.ShloMosaic.Lib.Tactic

noncomputable section

namespace Cert.KernelIdeal.Value

open Cert.KernelIdeal Cert.KernelIdeal.Gen Cert.KernelIdeal.Running Cert.TripletScore
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The last grid point. -/
def lastPt : Fin cfg0.N := ⟨31, by rw [show cfg0.N = 32 from N_0]; norm_num⟩

/-- The positive tile after the run: the positive's score at every entry. -/
abbrev posTile (c : Dev nD) : Buf (Elt Ideal) ((c : Thread nD τ).loc main_v0_0) := fun _ => score (qArr m c) (pArr m c)
/-- The negative tile after the run: the negative's score at every entry. -/
abbrev negTile (c : Dev nD) : Buf (Elt Ideal) ((c : Thread nD τ).loc main_v0_1) := fun _ => score (qArr m c) (nArr m c)

/-- Both output windows sit at block (0, 0) at every point, with the full extents 8 and 128: decided over the grid. -/
theorem out_block_facts : ∀ t : Fin cfg0.N,
    (win0_3.index t 0 * win0_3.size 0 = 0 ∧ win0_3.index t 1 * win0_3.size 1 = 0
      ∧ win0_3.xsize (grid0.coords t) 0 = 8 ∧ win0_3.xsize (grid0.coords t) 1 = 128)
    ∧ (win0_4.index t 0 * win0_4.size 0 = 0 ∧ win0_4.index t 1 * win0_4.size 1 = 0
      ∧ win0_4.xsize (grid0.coords t) 0 = 8 ∧ win0_4.xsize (grid0.coords t) 1 = 128) :=
  (by decide +kernel : ∀ t : Fin grid0.N,
    (win0_3.index t 0 * win0_3.size 0 = 0 ∧ win0_3.index t 1 * win0_3.size 1 = 0
      ∧ win0_3.xsize (grid0.coords t) 0 = 8 ∧ win0_3.xsize (grid0.coords t) 1 = 128)
    ∧ (win0_4.index t 0 * win0_4.size 0 = 0 ∧ win0_4.index t 1 * win0_4.size 1 = 0
      ∧ win0_4.xsize (grid0.coords t) 0 = 8 ∧ win0_4.xsize (grid0.coords t) 1 = 128))

/-- The one write-back of the pos tile, at the last point, writes a block that holds the pos score at every entry. -/
theorem flushed_pos (c : Dev nD) (t : Fin cfg0.N) (hf : (cfg0.win 3).flush t = true) :
    (dats m 0 c).flushed 3 t = ((cfg0.win 3).blk t).view.read (Elt Ideal) (posTile m c) := by
  have hN : cfg0.N = 32 := N_0
  have h31 : t.val = 31 := by have := (flush0_3 t).mp hf; have := t.isLt; omega
  have hs : running (qArr m c) (pArr m c) t.val = score (qArr m c) (pArr m c) := by
    rw [h31]; exact running_last _ _
  show (cfg0.win 3).cut (grid0.coords t) ((dats m 0 c).after 3 t) = _
  rw [after0_3, (sums_eq m c t.val t.isLt).1, hs]
  rfl

/-- That block is the whole [8, 128] array, so the pos tile ends holding the pos score at every entry. -/
theorem final_pos (c : Dev nD) : (dats m 0 c).arrAt 3 cfg0.N = posTile m c :=
  (dats m 0 c).arrAt_eq_of_cover 3 (posTile m c) (flushed_pos m c) fun i =>
    ⟨lastPt, (flush0_3 lastPt).mpr rfl, by
      show i ∈ ((View.whole main_v0_0).slice (win0_3.rect lastPt)).set
      rw [View.set_slice_whole, Rect.mem_set_unit]
      intro a
      have h0 : (i 0 : Nat) < 8 := (i 0).isLt
      have h1 : (i 1 : Nat) < 128 := (i 1).isLt
      have hb := out_block_facts lastPt
      match a with
      | ⟨0, _⟩ =>
        show win0_3.index lastPt 0 * win0_3.size 0 ≤ (i 0 : Nat)
          ∧ (i 0 : Nat) < win0_3.index lastPt 0 * win0_3.size 0 + win0_3.xsize (grid0.coords lastPt) 0
        rw [hb.1.1, hb.1.2.2.1]; omega
      | ⟨1, _⟩ =>
        show win0_3.index lastPt 1 * win0_3.size 1 ≤ (i 1 : Nat)
          ∧ (i 1 : Nat) < win0_3.index lastPt 1 * win0_3.size 1 + win0_3.xsize (grid0.coords lastPt) 1
        rw [hb.1.2.1, hb.1.2.2.2]; omega⟩

/-- The one write-back of the neg tile, at the last point, writes a block that holds the neg score at every entry. -/
theorem flushed_neg (c : Dev nD) (t : Fin cfg0.N) (hf : (cfg0.win 4).flush t = true) :
    (dats m 0 c).flushed 4 t = ((cfg0.win 4).blk t).view.read (Elt Ideal) (negTile m c) := by
  have hN : cfg0.N = 32 := N_0
  have h31 : t.val = 31 := by have := (flush0_4 t).mp hf; have := t.isLt; omega
  have hs : running (qArr m c) (nArr m c) t.val = score (qArr m c) (nArr m c) := by
    rw [h31]; exact running_last _ _
  show (cfg0.win 4).cut (grid0.coords t) ((dats m 0 c).after 4 t) = _
  rw [after0_4, (sums_eq m c t.val t.isLt).2.1, hs]
  rfl

/-- That block is the whole [8, 128] array, so the neg tile ends holding the neg score at every entry. -/
theorem final_neg (c : Dev nD) : (dats m 0 c).arrAt 4 cfg0.N = negTile m c :=
  (dats m 0 c).arrAt_eq_of_cover 4 (negTile m c) (flushed_neg m c) fun i =>
    ⟨lastPt, (flush0_4 lastPt).mpr rfl, by
      show i ∈ ((View.whole main_v0_1).slice (win0_4.rect lastPt)).set
      rw [View.set_slice_whole, Rect.mem_set_unit]
      intro a
      have h0 : (i 0 : Nat) < 8 := (i 0).isLt
      have h1 : (i 1 : Nat) < 128 := (i 1).isLt
      have hb := out_block_facts lastPt
      match a with
      | ⟨0, _⟩ =>
        show win0_4.index lastPt 0 * win0_4.size 0 ≤ (i 0 : Nat)
          ∧ (i 0 : Nat) < win0_4.index lastPt 0 * win0_4.size 0 + win0_4.xsize (grid0.coords lastPt) 0
        rw [hb.2.1, hb.2.2.2.1]; omega
      | ⟨1, _⟩ =>
        show win0_4.index lastPt 1 * win0_4.size 1 ≤ (i 1 : Nat)
          ∧ (i 1 : Nat) < win0_4.index lastPt 1 * win0_4.size 1 + win0_4.xsize (grid0.coords lastPt) 1
        rw [hb.2.2.1, hb.2.2.2.2]; omega⟩

/-- The host operations after the call, over the two final tiles: the loss. -/
theorem tail_eq (c : Dev nD) :
    Pipeline.afterTail₀ cfgs (dats m) 0 (V0 m) [hostOps1, hostOps1_1] c main_v7
      = fun _ => loss (qArr m c) (pArr m c) (nArr m c) := by
  unfold Pipeline.afterTail₀
  simp only [hostOps1, hostOps1_1, List.flatten_cons, List.flatten_nil, List.append_nil, List.cons_append, List.nil_append]
  after_results
  have ep : Pipeline.withArrays (cfgs 0).spec c (V0 m c) (fun w => (dats m 0 c).arrAt w (cfgs 0).N) (Proc.devRef .tc main_v0_0)
      = posTile m c := (Pipeline.withArrays_arr spec0 launch0.win.arr_inj c _ _ 3).trans (final_pos m c)
  have en : Pipeline.withArrays (cfgs 0).spec c (V0 m c) (fun w => (dats m 0 c).arrAt w (cfgs 0).N) (Proc.devRef .tc main_v0_1)
      = negTile m c := (Pipeline.withArrays_arr spec0 launch0.win.arr_inj c _ _ 4).trans (final_neg m c)
  rw [ep, en]
  rfl

/-- THE RUN, READ: every weakly fair execution of the kernel program terminates with its result at the loss of the
    three argument arrays, and the arguments unchanged. -/
theorem run : θ_run defs (onTc (τ := τ) (main (F := Ideal))) ⟨m, fun _ => 0, ρ⟩ fun r => ∀ c : Dev nD,
      r.2.mem ((c.tc : Thread nD τ).loc main_v7) = (fun _ => loss (qArr m c) (pArr m c) (nArr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Value

end
-- ==== Proof.RefLoss.lean ====
/-
  The reference computes the triplet loss of the specification.

  Read one operation at a time over the extended reals: the batched product at `(b, r, k)` is the inner product of query
  token `r` and document token `k` of batch `b`; the maximum over the last axis from minus infinity is the query token's
  best similarity; the sum over both remaining axes from zero is the score; and the last three operations are the margin
  plus the negative's score minus the positive's, cut off below at zero.
-/
import proofs.«109188_j52664888983644_1_alg».proof.Proof.Gen.ReferenceIdeal.Read
import proofs.«109188_j52664888983644_1_alg».proof.Proof.LibMaxLast
import proofs.«109188_j52664888983644_1_alg».proof.Proof.ScoreSpec

noncomputable section

namespace Cert.ReferenceIdeal.RefValue

open Cert.ReferenceIdeal Cert.ReferenceIdeal.Gen Cert.ReferenceIdeal.Read Cert.TripletScore
open Idealize.ShloMosaic Idealize.ShloMosaic.ValueIdx

/-- The product's left operand index at `(b, r, k)` and feature `e` is `(b, r, e)`; -/
theorem lidx_pos (b r : Fin 256) (k : Fin 512) (e : Fin 128) : lidx_main_v0 (ix3 b r k) e = ix3 b r e :=
  funext fun a => Fin.ext (by
    match a with
    | ⟨0, _⟩ => rfl
    | ⟨1, _⟩ => rfl
    | ⟨2, _⟩ => rfl)
/-- its right operand index is `(b, k, e)`. -/
theorem ridx_pos (b r : Fin 256) (k : Fin 512) (e : Fin 128) : ridx_main_v0 (ix3 b r k) e = ix3 b k e :=
  funext fun a => Fin.ext (by
    match a with
    | ⟨0, _⟩ => rfl
    | ⟨1, _⟩ => rfl
    | ⟨2, _⟩ => rfl)
theorem lidx_neg (b r : Fin 256) (k : Fin 512) (e : Fin 128) : lidx_main_v3 (ix3 b r k) e = ix3 b r e :=
  funext fun a => Fin.ext (by
    match a with
    | ⟨0, _⟩ => rfl
    | ⟨1, _⟩ => rfl
    | ⟨2, _⟩ => rfl)
theorem ridx_neg (b r : Fin 256) (k : Fin 512) (e : Fin 128) : ridx_main_v3 (ix3 b r k) e = ix3 b k e :=
  funext fun a => Fin.ext (by
    match a with
    | ⟨0, _⟩ => rfl
    | ⟨1, _⟩ => rfl
    | ⟨2, _⟩ => rfl)

/-- The reduction fact of the maximum over the last axis, by computation at the literal shapes. -/
theorem reduces_last : (⟨3, ![256, 256, 512]⟩ : Shape).Reduces [2] ⟨2, ![256, 256]⟩ := by decide

/-- The first product at `(b, r, k)`: the similarity against the positive documents. -/
theorem prod_pos (q : Queries) (p : Docs) (b r : Fin 256) (k : Fin 512) :
    val_main_v0 (F := Ideal) q p (ix3 b r k) = sim q p b r k := by
  rw [val_main_v0_apply]
  exact Finset.sum_congr rfl fun e _ => by rw [lidx_pos, ridx_pos]

/-- The second product at `(b, r, k)`: the similarity against the negative documents. -/
theorem prod_neg (q : Queries) (n : Docs) (b r : Fin 256) (k : Fin 512) :
    val_main_v3 (F := Ideal) q n (ix3 b r k) = sim q n b r k := by
  rw [val_main_v3_apply]
  exact Finset.sum_congr rfl fun e _ => by rw [lidx_neg, ridx_neg]

/-- The first maximum at `(b, r)`: the best similarity against the positive documents. -/
theorem best_pos (q : Queries) (p : Docs) (b r : Fin 256) :
    val_main_v1 (F := Ideal) q p (ix2 b r) = bestSim q p b r := by
  refine (Cert.LibMaxLast.hostMax_last_apply (val_main_v0 (F := Ideal) q p) (val_main_cst (F := Ideal))
    reducesTo_S256x256x512_S256x256_d2 reduces_last h_S_ b r).trans ?_
  show Finset.univ.fold max (Ideal.ofBits .f32 0xFF800000#32) _ = _
  exact Finset.fold_congr fun k _ => prod_pos q p b r k

/-- The second maximum at `(b, r)`: the best similarity against the negative documents. -/
theorem best_neg (q : Queries) (n : Docs) (b r : Fin 256) :
    val_main_v4 (F := Ideal) q n (ix2 b r) = bestSim q n b r := by
  refine (Cert.LibMaxLast.hostMax_last_apply (val_main_v3 (F := Ideal) q n) (val_main_cst_1 (F := Ideal))
    reducesTo_S256x256x512_S256x256_d2 reduces_last h_S_ b r).trans ?_
  show Finset.univ.fold max (Ideal.ofBits .f32 0xFF800000#32) _ = _
  exact Finset.fold_congr fun k _ => prod_neg q n b r k

/-- The first total: zero plus the sum over every `(b, r)`, which is the positive's score. -/
theorem total_pos (q : Queries) (p : Docs) (i : S_.Idx) : val_main_v2 (F := Ideal) q p i = score q p := by
  rw [val_main_v2_apply]
  show Ideal.ofBits .f32 0x00000000#32 + _ = _
  rw [Ideal.ofBits_zero_f32, zero_add, sum_idx2]
  exact Finset.sum_congr rfl fun b _ => Finset.sum_congr rfl fun r _ => best_pos q p b r

/-- The second total: the negative's score. -/
theorem total_neg (q : Queries) (n : Docs) (i : S_.Idx) : val_main_v5 (F := Ideal) q n i = score q n := by
  rw [val_main_v5_apply]
  show Ideal.ofBits .f32 0x00000000#32 + _ = _
  rw [Ideal.ofBits_zero_f32, zero_add, sum_idx2]
  exact Finset.sum_congr rfl fun b _ => Finset.sum_congr rfl fun r _ => best_neg q n b r

/-- The reference's result is the loss of its three arguments. -/
theorem result_eq_loss (q : Queries) (p n : Docs) : val_main_v8 (F := Ideal) q p n = fun _ => loss q p n := by
  funext i
  rw [val_main_v8_apply, val_main_v7_apply, val_main_v6_apply, total_pos, total_neg]
  rfl

end Cert.ReferenceIdeal.RefValue

end
-- ==== Proof.lean ====
/-
  The late-interaction triplet loss: the kernel against its reference, over the extended reals.

  Both programs compute `max (margin + score q n - score q p) 0`, where the score of queries `q` against documents `d` is
  the sum over the 256 batches and their 256 query tokens of the best similarity, the maximum over the 512 document tokens
  of the inner product over the 128 features. The reference forms each score in one piece. The kernel walks the batches in
  32 blocks of 8, keeps a running sum of the block sums in a buffer it carries from one grid point to the next (starting
  from zero at the first point), writes the final sums back once after the last point, and leaves the last three
  operations to the host. The two agree because a sum over 256 batches is the sum over 32 blocks of the sums over each
  block's 8 batches; addition and `max` on the extended reals are commutative and associative, so no finiteness of the
  inputs is used.

  The kernel's idealization rewrote no operation, so that claim is trivial; the three frames are the two generated frames
  and the reference's generated run with its result dropped.
-/
import proofs.«109188_j52664888983644_1_alg».proof.Defs
import proofs.«109188_j52664888983644_1_alg».proof.Proof.Gen.Kernel
import proofs.«109188_j52664888983644_1_alg».proof.Proof.Gen.Kernel.Skeleton
import proofs.«109188_j52664888983644_1_alg».proof.Proof.Gen.Kernel.Launch
import proofs.«109188_j52664888983644_1_alg».proof.Proof.Gen.Kernel.Points
import proofs.«109188_j52664888983644_1_alg».proof.Proof.Gen.Kernel.Frame
import proofs.«109188_j52664888983644_1_alg».proof.Proof.Gen.KernelIdeal
import proofs.«109188_j52664888983644_1_alg».proof.Proof.Gen.KernelIdeal.Skeleton
import proofs.«109188_j52664888983644_1_alg».proof.Proof.Gen.KernelIdeal.Launch
import proofs.«109188_j52664888983644_1_alg».proof.Proof.Gen.KernelIdeal.Points
import proofs.«109188_j52664888983644_1_alg».proof.Proof.Gen.KernelIdeal.Frame
import proofs.«109188_j52664888983644_1_alg».proof.Proof.Gen.ReferenceIdeal
import proofs.«109188_j52664888983644_1_alg».proof.Proof.Gen.ReferenceIdeal.Run
import proofs.«109188_j52664888983644_1_alg».proof.Proof.Gen.ReferenceIdeal.Read
import proofs.«109188_j52664888983644_1_alg».proof.Proof.Gen.Pre_finite_inputs
import Idealize.ShloMosaic.Adequacy
import Idealize.ShloMosaic.Init

import proofs.«109188_j52664888983644_1_alg».proof.Proof.KernelRun
import proofs.«109188_j52664888983644_1_alg».proof.Proof.RefLoss

noncomputable section

namespace Cert.Proof

open Idealize.ShloMosaic Idealize.SL.Sem Cert.TripletScore

/-- The reference runs and keeps its arguments: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments, the kernel program ends at the loss of its arguments and the
    reference at the loss of its own, which are the same arrays. -/
theorem algebraic : Cert.algebraic_KernelIdeal_ReferenceIdeal := by
  intro m ρ m' ρ' _ hagree
  refine ⟨fun c _ => loss (Cert.KernelIdeal.Running.qArr m c) (Cert.KernelIdeal.Running.pArr m c)
    (Cert.KernelIdeal.Running.nArr m c), Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v8_eq _ _ _).trans (Cert.ReferenceIdeal.RefValue.result_eq_loss _ _ _)

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, frame_reference, trivial, algebraic⟩

end Cert.Proof

end
